-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S2x400000 : Shape := ⟨2, ![2, 400000]⟩
abbrev S300x512 : Shape := ⟨2, ![300, 512]⟩
abbrev S512 : Shape := ⟨1, ![512]⟩
abbrev S512x300 : Shape := ⟨2, ![512, 300]⟩
abbrev S300 : Shape := ⟨1, ![300]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S300x512 : S_.BroadcastsInDim S300x512 (![] : Fin 0 → Fin S300x512.rank)
  reducesTo_S300x512_S_d0_1 : S300x512.ReducesTo [0, 1] S_
  bcast_S_S512 : S_.BroadcastsInDim S512 (![] : Fin 0 → Fin S512.rank)
  reducesTo_S512_S_d0 : S512.ReducesTo [0] S_
  bcast_S_S512x300 : S_.BroadcastsInDim S512x300 (![] : Fin 0 → Fin S512x300.rank)
  reducesTo_S512x300_S_d0_1 : S512x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg5 : FVec F S300 .f32) (main_v13 : IVec S_ 1) (main_v16 : IVec S512x300 1) : IVec S_ 1 :=
  let main_c_5 : IVec S_ 1 := constantI S_ 1 1#1
  let main_v17 : IVec S_ 1 := (fun x v => Host.reduce IntOp.andi x v reducesTo_S512x300_S_d0_1 h_S_) main_v16 main_c_5
  let main_v18 : IVec S_ 1 := andi main_v13 main_v17
  let main_v19 : FVec F S300 .f32 := Host.absf main_arg5
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  main_v23

def fn {F : FTy → Type} [FloatOps F] (main_arg0 : FVec F S50000x300 .f32) (main_arg1 : IVec S2x400000 32) (main_arg2 : FVec F S300x512 .f32) (main_arg3 : FVec F S512 .f32) (main_arg4 : FVec F S512x300 .f32) (main_arg5 : FVec F S300 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S300x512 .f32 := Host.absf main_arg2
  let main_cst_0 : FVec F S_ .f32 := constant S_ .f32 0x7F800000#32
  let main_v5 : FVec F S300x512 .f32 := broadcastInDim S300x512 ![] bcast_S_S300x512 main_cst_0
  let main_v6 : IVec S300x512 1 := cmpf .olt main_v4 main_v5
  let main_c_1 : IVec S_ 1 := constantI S_ 1 1#1
  let main_v7 : IVec S_ 1 := (fun x v => Host.reduce IntOp.andi x v reducesTo_S300x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x300 .f32 := Host.absf main_arg4
  let main_cst_4 : FVec F S_ .f32 := constant S_ .f32 0x7F800000#32
  let main_v15 : FVec F S512x300 .f32 := broadcastInDim S512x300 ![] bcast_S_S512x300 main_cst_4
  let main_v16 : IVec S512x300 1 := cmpf .olt main_v14 main_v15
  fn_part1 (F := F) main_arg5 main_v13 main_v16
-- ==== Kernel.lean ====
abbrev S50000x300 : Shape := ⟨2, ![50000, 300]⟩
abbrev S2x400000 : Shape := ⟨2, ![2, 400000]⟩
abbrev S300x512 : Shape := ⟨2, ![300, 512]⟩
abbrev S512 : Shape := ⟨1, ![512]⟩
abbrev S512x300 : Shape := ⟨2, ![512, 300]⟩
abbrev S300 : Shape := ⟨1, ![300]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S2000x300 : Shape := ⟨2, ![2000, 300]⟩
abbrev S2000x512 : Shape := ⟨2, ![2000, 512]⟩
abbrev S450000x512 : Shape := ⟨2, ![450000, 512]⟩
abbrev S1x512 : Shape := ⟨2, ![1, 512]⟩
abbrev S450000x300 : Shape := ⟨2, ![450000, 300]⟩
abbrev S1x300 : Shape := ⟨2, ![1, 300]⟩

abbrev nBuf : Space → Nat
  | .hbm => 121
  | .vmem => 10
  | .smem => 0
  | _ => 0

abbrev bufTy : (tb : Table) → Fin (tcTables nBuf tb) → BufTy
  | .hbm, ⟨0, _⟩ => ⟨S50000x300, .f32⟩
  | .hbm, ⟨1, _⟩ => ⟨S2x400000, .i32⟩
  | .hbm, ⟨2, _⟩ => ⟨S300x512, .f32⟩
  | .hbm, ⟨3, _⟩ => ⟨S512, .f32⟩
  | .hbm, ⟨4, _⟩ => ⟨S512x300, .f32⟩
  | .hbm, ⟨5, _⟩ => ⟨S300, .f32⟩
  | .hbm, ⟨6, _⟩ => ⟨S50000, .i32⟩
  | .hbm, ⟨7, _⟩ => ⟨S1x400000, .i32⟩
  | .hbm, ⟨8, _⟩ => ⟨S400000, .i32⟩
  | .hbm, ⟨9, _⟩ => ⟨S450000, .i32⟩
  | .hbm, ⟨10, _⟩ => ⟨S1x400000, .i32⟩
  | .hbm, ⟨11, _⟩ => ⟨S400000, .i32⟩
  | .hbm, ⟨12, _⟩ => ⟨S450000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S450000, .i32⟩
  | .hbm, ⟨17, _⟩ => ⟨S450000, .i1⟩
  | .hbm, ⟨18, _⟩ => ⟨S_, .i32⟩
  | .hbm, ⟨19, _⟩ => ⟨S450000, .i32⟩
  | .hbm, ⟨20, _⟩ => ⟨S450000, .i32⟩
  | .hbm, ⟨21, _⟩ => ⟨S450000, .i32⟩
  | .hbm, ⟨22, _⟩ => ⟨S450000x1, .i32⟩
  | .hbm, ⟨23, _⟩ => ⟨S_, .f32⟩
  | .hbm, ⟨24, _⟩ => ⟨S450000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x512, .f32⟩
  | .hbm, ⟨38, _⟩ => ⟨S_, .i32⟩
  | .hbm, ⟨39, _⟩ => ⟨S450000, .i32⟩
  | .hbm, ⟨40, _⟩ => ⟨S450000, .i1⟩
  | .hbm, ⟨41, _⟩ => ⟨S_, .i32⟩
  | .hbm, ⟨42, _⟩ => ⟨S450000, .i32⟩
  | .hbm, ⟨43, _⟩ => ⟨S450000, .i32⟩
  | .hbm, ⟨44, _⟩ => ⟨S450000, .i32⟩
  | .hbm, ⟨45, _⟩ => ⟨S450000x1, .i32⟩
  | .hbm, ⟨46, _⟩ => ⟨S450000, .f32⟩
  | .hbm, ⟨47, _⟩ => ⟨S_, .i32⟩
  | .hbm, ⟨48, _⟩ => ⟨S450000, .i32⟩
  | .hbm, ⟨49, _⟩ => ⟨S450000, .i1⟩
  | .hbm, ⟨50, _⟩ => ⟨S_, .i32⟩
  | .hbm, ⟨51, _⟩ => ⟨S450000, .i32⟩
  | .hbm, ⟨52, _⟩ => ⟨S450000, .i32⟩
  | .hbm, ⟨53, _⟩ => ⟨S450000, .i32⟩
  | .hbm, ⟨54, _⟩ => ⟨S450000x1, .i32⟩
  | .hbm, ⟨55, _⟩ => ⟨S450000, .f32⟩
  | .hbm, ⟨56, _⟩ => ⟨S450000, .f32⟩
  | .hbm, ⟨57, _⟩ => ⟨S_, .i32⟩
  | .hbm, ⟨58, _⟩ => ⟨S450000, .i32⟩
  | .hbm, ⟨59, _⟩ => ⟨S450000, .i1⟩
  | .hbm, ⟨60, _⟩ => ⟨S_, .i32⟩
  | .hbm, ⟨61, _⟩ => ⟨S450000, .i32⟩
  | .hbm, ⟨62, _⟩ => ⟨S450000, .i32⟩
  | .hbm, ⟨63, _⟩ => ⟨S450000, .i32⟩
  | .hbm, ⟨64, _⟩ => ⟨S450000x1, .i32⟩
  | .hbm, ⟨65, _⟩ => ⟨S450000x512, .f32⟩
  | .hbm, ⟨66, _⟩ => ⟨S450000x1, .f32⟩
  | .hbm, ⟨67, _⟩ => ⟨S450000x512, .f32⟩
  | .hbm, ⟨68, _⟩ => ⟨S450000x512, .f32⟩
  | .hbm, ⟨69, _⟩ => ⟨S_, .f32⟩
  | .hbm, ⟨70, _⟩ => ⟨S50000x512, .f32⟩
  | .hbm, ⟨71, _⟩ => ⟨S450000x1, .i32⟩
  | .hbm, ⟨72, _⟩ => ⟨S50000x512, .f32⟩
  | .hbm, ⟨73, _⟩ => ⟨S1x512, .f32⟩
  | .hbm, ⟨74, _⟩ => ⟨S50000x512, .f32⟩
  | .hbm, ⟨75, _⟩ => ⟨S50000x512, .f32⟩
  | .hbm, ⟨76, _⟩ => ⟨S_, .f32⟩
  | .hbm, ⟨77, _⟩ => ⟨S50000x512, .f32⟩
  | .hbm, ⟨78, _⟩ => ⟨S50000x512, .f32⟩
  | .hbm, ⟨79, _⟩ => ⟨S50000x300, .f32⟩
  | .hbm, ⟨80, _⟩ => ⟨S_, .i32⟩
  | .hbm, ⟨81, _⟩ => ⟨S450000, .i32⟩
  | .hbm, ⟨82, _⟩ => ⟨S450000, .i1⟩
  | .hbm, ⟨83, _⟩ => ⟨S_, .i32⟩
  | .hbm, ⟨84, _⟩ => ⟨S450000, .i32⟩
  | .hbm, ⟨85, _⟩ => ⟨S450000, .i32⟩
  | .hbm, ⟨86, _⟩ => ⟨S450000, .i32⟩
  | .hbm, ⟨87, _⟩ => ⟨S450000x1, .i32⟩
  | .hbm, ⟨88, _⟩ => ⟨S450000, .f32⟩
  | .hbm, ⟨89, _⟩ => ⟨S_, .i32⟩
  | .hbm, ⟨90, _⟩ => ⟨S450000, .i32⟩
  | .hbm, ⟨91, _⟩ => ⟨S450000, .i1⟩
  | .hbm, ⟨92, _⟩ => ⟨S_, .i32⟩
  | .hbm, ⟨93, _⟩ => ⟨S450000, .i32⟩
  | .hbm, ⟨94, _⟩ => ⟨S450000, .i32⟩
  | .hbm, ⟨95, _⟩ => ⟨S450000, .i32⟩
  | .hbm, ⟨96, _⟩ => ⟨S450000x1, .i32⟩
  | .hbm, ⟨97, _⟩ => ⟨S450000, .f32⟩
  | .hbm, ⟨98, _⟩ => ⟨S450000, .f32⟩
  | .hbm, ⟨99, _⟩ => ⟨S_, .i32⟩
  | .hbm, ⟨100, _⟩ => ⟨S450000, .i32⟩
  | .hbm, ⟨101, _⟩ => ⟨S450000, .i1⟩
  | .hbm, ⟨102, _⟩ => ⟨S_, .i32⟩
  | .hbm, ⟨103, _⟩ => ⟨S450000, .i32⟩
  | .hbm, ⟨104, _⟩ => ⟨S450000, .i32⟩
  | .hbm, ⟨105, _⟩ => ⟨S450000, .i32⟩
  | .hbm, ⟨106, _⟩ => ⟨S450000x1, .i32⟩
  | .hbm, ⟨107, _⟩ => ⟨S450000x300, .f32⟩
  | .hbm, ⟨108, _⟩ => ⟨S450000x1, .f32⟩
  | .hbm, ⟨109, _⟩ => ⟨S450000x300, .f32⟩
  | .hbm, ⟨110, _⟩ => ⟨S450000x300, .f32⟩
  | .hbm, ⟨111, _⟩ => ⟨S_, .f32⟩
  | .hbm, ⟨112, _⟩ => ⟨S50000x300, .f32⟩
  | .hbm, ⟨113, _⟩ => ⟨S450000x1, .i32⟩
  | .hbm, ⟨114, _⟩ => ⟨S50000x300, .f32⟩
  | .hbm, ⟨115, _⟩ => ⟨S1x300, .f32⟩
  | .hbm, ⟨116, _⟩ => ⟨S50000x300, .f32⟩
  | .hbm, ⟨117, _⟩ => ⟨S50000x300, .f32⟩
  | .hbm, ⟨118, _⟩ => ⟨S_, .f32⟩
  | .hbm, ⟨119, _⟩ => ⟨S50000x300, .f32⟩
  | .hbm, ⟨120, _⟩ => ⟨S50000x300, .f32⟩
  | .local _ .vmem, ⟨0, _⟩ => ⟨S2000x300, .f32⟩
  | .local _ .vmem, ⟨1, _⟩ => ⟨S2000x300, .f32⟩
  | .local _ .vmem, ⟨2, _⟩ => ⟨S300x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x300, .f32⟩
  | .local _ .vmem, ⟨8, _⟩ => ⟨S2000x300, .f32⟩
  | .local _ .vmem, ⟨9, _⟩ => ⟨S2000x300, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_call2_cst : Ref sig .tc := ⟨.hbm, 118, rfl⟩
abbrev main_call2_v0 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S_S450000 : S_.BroadcastsInDim S450000 (![] : Fin 0 → Fin S450000.rank)
  bcast_S450000_S450000x1_0 : S450000.BroadcastsInDim S450000x1 (![0] : Fin 1 → Fin S450000x1.rank)
  inb_S2000x300_S2000x300_0_0 : ∀ a, (![0, 0] : Fin 2 → Nat) a + S2000x300.size a ≤ S2000x300.size a
  h_S2000x300 : 0 < S2000x300.numel
  bitsLt_bf16_f32 : FTy.bits .bf16 < FTy.bits .f32
  inb_S300x512_S300x512_0_0 : ∀ a, (![0, 0] : Fin 2 → Nat) a + S300x512.size a ≤ S300x512.size a
  h_S300x512 : 0 < S300x512.numel
  inb_S2000x512_S2000x512_0_0 : ∀ a, (![0, 0] : Fin 2 → Nat) a + S2000x512.size a ≤ S2000x512.size a
  h_S2000x512 : 0 < S2000x512.numel
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  shapeCasts_S2000x512_S2000x512 : S2000x512.ShapeCasts S2000x512
  inb_S512x300_S512x300_0_0 : ∀ a, (![0, 0] : Fin 2 → Nat) a + S512x300.size a ≤ S512x300.size a
  h_S512x300 : 0 < S512x300.numel
  bcast_S450000x1_S450000x300_0_1 : S450000x1.BroadcastsInDim S450000x300 (![0, 1] : Fin 2 → Fin S450000x300.rank)
  bcast_S_S50000x300 : S_.BroadcastsInDim S50000x300 (![] : Fin 0 → Fin S50000x300.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  scatter_S50000_S450000x1_S450000_n_0_0_1_wf : ScatterDims.WF S50000 S450000x1 S450000 [] [0] [0] 1
  dot_S2000x300_S300x512_S2000x512_1_0_0_1_n_n_wf : DotDims.WF S2000x300 S300x512 S2000x512 [1] [0] [0] [1] [] []
  gather_S50000_S450000x1_S450000_n_0_n_n_0_1_1_wf : GatherDims.WF S50000 S450000x1 S450000 [] [0] [] [0] [] 1 ![1]
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S2000x512_S512x300_S2000x300_1_0_0_1_n_n_wf : DotDims.WF S2000x512 S512x300 S2000x300 [1] [0] [0] [1] [] []
  gather_S50000x300_S450000x1_S450000x300_1_0_n_n_0_1_1300_wf : GatherDims.WF S50000x300 S450000x1 S450000x300 [1] [0] [] [0] [] 1 ![1, 300]
  scatter_S50000x300_S450000x1_S450000x300_1_0_0_1_wf : ScatterDims.WF S50000x300 S450000x1 S450000x300 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S50000x300.size a
  hwx0_0 : ∀ i : grid0.Coords, EltTy.bits .f32 = 32 ∨ (Rect.block (s := S50000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x512.size a ≤ S300x512.size a
  hwx0_1 : ∀ i : grid0.Coords, EltTy.bits .f32 = 32 ∨ (Rect.block (s := S300x512) S300x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x300.size a ≤ S512x300.size a
  hwx1_1 : ∀ i : grid1.Coords, EltTy.bits .f32 = 32 ∨ (Rect.block (s := S512x300) S512x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x300.size a ≤ S50000x300.size a
  hwx1_2 : ∀ i : grid1.Coords, EltTy.bits .f32 = 32 ∨ (Rect.block (s := S50000x300) S2000x300.size (cc1_transform_2 i) (hinb1_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S2000x300_S300x512_S2000x512_1_0_0_1_n_n : DotDims S2000x300 S300x512 S2000x512 where
  lhsContracting := [1]
  rhsContracting := [0]
  lhsNonContracting := [0]
  rhsNonContracting := [1]
  lhsBatch := []
  rhsBatch := []
  wf := dot_S2000x300_S300x512_S2000x512_1_0_0_1_n_n_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S2000x512_S512x300_S2000x300_1_0_0_1_n_n : DotDims S2000x512 S512x300 S2000x300 where
  lhsContracting := [1]
  rhsContracting := [0]
  lhsNonContracting := [0]
  rhsNonContracting := [1]
  lhsBatch := []
  rhsBatch := []
  wf := dot_S2000x512_S512x300_S2000x300_1_0_0_1_n_n_wf
def gather_S50000x300_S450000x1_S450000x300_1_0_n_n_0_1_1300 : GatherDims S50000x300 S450000x1 S450000x300 where
  offsetDims := [1]
  collapsedSliceDims := [0]
  operandBatchingDims := []
  startIndicesBatchingDims := []
  startIndexMap := [0]
  indexVectorDim := 1
  sliceSizes := ![1, 300]
  wf := gather_S50000x300_S450000x1_S450000x300_1_0_n_n_0_1_1300_wf
def scatter_S50000x300_S450000x1_S450000x300_1_0_0_1 : ScatterDims S50000x300 S450000x1 S450000x300 where
  updateWindowDims := [1]
  insertedWindowDims := [0]
  scatterDimsToOperandDims := [0]
  indexVectorDim := 1
  wf := scatter_S50000x300_S450000x1_S450000x300_1_0_0_1_wf

abbrev win0_0 : Pipeline.Window sig grid0 :=
  Pipeline.Window.ofSpec (Memref.whole main_arg0) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S300x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S2000x300.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x300 : Shape := ⟨2, ![50000, 300]⟩
abbrev S2x400000 : Shape := ⟨2, ![2, 400000]⟩
abbrev S300x512 : Shape := ⟨2, ![300, 512]⟩
abbrev S512 : Shape := ⟨1, ![512]⟩
abbrev S512x300 : Shape := ⟨2, ![512, 300]⟩
abbrev S300 : Shape := ⟨1, ![300]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S450000x512 : Shape := ⟨2, ![450000, 512]⟩
abbrev S1x512 : Shape := ⟨2, ![1, 512]⟩
abbrev S450000x300 : Shape := ⟨2, ![450000, 300]⟩
abbrev S1x300 : Shape := ⟨2, ![1, 300]⟩

abbrev nBuf : Space → Nat
  | .hbm => 145
  | .vmem => 0
  | .smem => 0
  | _ => 0

abbrev hbmTy0_0 (i : Nat) : BufTy := match i % 128 with
  | 0 => ⟨S50000x300, .f32⟩
  | 1 => ⟨S2x400000, .i32⟩
  | 2 => ⟨S300x512, .f32⟩
  | 3 => ⟨S512, .f32⟩
  | 4 => ⟨S512x300, .f32⟩
  | 5 => ⟨S300, .f32⟩
  | 6 => ⟨S50000, .i32⟩
  | 7 => ⟨S1x400000, .i32⟩
  | 8 => ⟨S400000, .i32⟩
  | 9 => ⟨S450000, .i32⟩
  | 10 => ⟨S1x400000, .i32⟩
  | 11 => ⟨S400000, .i32⟩
  | 12 => ⟨S450000, .i32⟩
  | 13 => ⟨S_, .f32⟩
  | 14 => ⟨S50000, .f32⟩
  | 15 => ⟨S_, .i32⟩
  | 16 => ⟨S450000, .i32⟩
  | 17 => ⟨S450000, .i1⟩
  | 18 => ⟨S_, .i32⟩
  | 19 => ⟨S450000, .i32⟩
  | 20 => ⟨S450000, .i32⟩
  | 21 => ⟨S450000, .i32⟩
  | 22 => ⟨S450000x1, .i32⟩
  | 23 => ⟨S_, .f32⟩
  | 24 => ⟨S450000, .f32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S450000, .i32⟩
  | 39 => ⟨S450000, .i1⟩
  | 40 => ⟨S_, .i32⟩
  | 41 => ⟨S450000, .i32⟩
  | 42 => ⟨S450000, .i32⟩
  | 43 => ⟨S450000, .i32⟩
  | 44 => ⟨S450000x1, .i32⟩
  | 45 => ⟨S450000, .f32⟩
  | 46 => ⟨S_, .i32⟩
  | 47 => ⟨S450000, .i32⟩
  | 48 => ⟨S450000, .i1⟩
  | 49 => ⟨S_, .i32⟩
  | 50 => ⟨S450000, .i32⟩
  | 51 => ⟨S450000, .i32⟩
  | 52 => ⟨S450000, .i32⟩
  | 53 => ⟨S450000x1, .i32⟩
  | 54 => ⟨S450000, .f32⟩
  | 55 => ⟨S450000, .f32⟩
  | 56 => ⟨S50000x512, .f32⟩
  | 57 => ⟨S_, .i32⟩
  | 58 => ⟨S450000, .i32⟩
  | 59 => ⟨S450000, .i1⟩
  | 60 => ⟨S_, .i32⟩
  | 61 => ⟨S450000, .i32⟩
  | 62 => ⟨S450000, .i32⟩
  | 63 => ⟨S450000, .i32⟩
  | 64 => ⟨S450000x1, .i32⟩
  | 65 => ⟨S450000x512, .f32⟩
  | 66 => ⟨S450000x1, .f32⟩
  | 67 => ⟨S450000x512, .f32⟩
  | 68 => ⟨S450000x512, .f32⟩
  | 69 => ⟨S_, .f32⟩
  | 70 => ⟨S50000x512, .f32⟩
  | 71 => ⟨S450000x1, .i32⟩
  | 72 => ⟨S50000x512, .f32⟩
  | 73 => ⟨S1x512, .f32⟩
  | 74 => ⟨S50000x512, .f32⟩
  | 75 => ⟨S50000x512, .f32⟩
  | 76 => ⟨S_, .f32⟩
  | 77 => ⟨S50000x512, .f32⟩
  | 78 => ⟨S50000x512, .f32⟩
  | 79 => ⟨S_, .f32⟩
  | 80 => ⟨S50000, .f32⟩
  | 81 => ⟨S_, .i32⟩
  | 82 => ⟨S450000, .i32⟩
  | 83 => ⟨S450000, .i1⟩
  | 84 => ⟨S_, .i32⟩
  | 85 => ⟨S450000, .i32⟩
  | 86 => ⟨S450000, .i32⟩
  | 87 => ⟨S450000, .i32⟩
  | 88 => ⟨S450000x1, .i32⟩
  | 89 => ⟨S_, .f32⟩
  | 90 => ⟨S450000, .f32⟩
  | 91 => ⟨S50000, .f32⟩
  | 92 => ⟨S_, .f32⟩
  | 93 => ⟨S50000, .f32⟩
  | 94 => ⟨S50000, .i1⟩
  | 95 => ⟨S_, .f32⟩
  | 96 => ⟨S50000, .f32⟩
  | 97 => ⟨S50000, .f32⟩
  | 98 => ⟨S50000, .f32⟩
  | 99 => ⟨S_, .f32⟩
  | 100 => ⟨S_, .f32⟩
  | 101 => ⟨S50000, .f32⟩
  | 102 => ⟨S50000, .f32⟩
  | 103 => ⟨S_, .i32⟩
  | 104 => ⟨S450000, .i32⟩
  | 105 => ⟨S450000, .i1⟩
  | 106 => ⟨S_, .i32⟩
  | 107 => ⟨S450000, .i32⟩
  | 108 => ⟨S450000, .i32⟩
  | 109 => ⟨S450000, .i32⟩
  | 110 => ⟨S450000x1, .i32⟩
  | 111 => ⟨S450000, .f32⟩
  | 112 => ⟨S_, .i32⟩
  | 113 => ⟨S450000, .i32⟩
  | 114 => ⟨S450000, .i1⟩
  | 115 => ⟨S_, .i32⟩
  | 116 => ⟨S450000, .i32⟩
  | 117 => ⟨S450000, .i32⟩
  | 118 => ⟨S450000, .i32⟩
  | 119 => ⟨S450000x1, .i32⟩
  | 120 => ⟨S450000, .f32⟩
  | 121 => ⟨S450000, .f32⟩
  | 122 => ⟨S50000x300, .f32⟩
  | 123 => ⟨S_, .i32⟩
  | 124 => ⟨S450000, .i32⟩
  | 125 => ⟨S450000, .i1⟩
  | 126 => ⟨S_, .i32⟩
  | 127 => ⟨S450000, .i32⟩
  | _ => ⟨S50000x300, .f32⟩

abbrev hbmTy0_1 (i : Nat) : BufTy := match i % 128 with
  | 0 => ⟨S450000, .i32⟩
  | 1 => ⟨S450000, .i32⟩
  | 2 => ⟨S450000x1, .i32⟩
  | 3 => ⟨S450000x300, .f32⟩
  | 4 => ⟨S450000x1, .f32⟩
  | 5 => ⟨S450000x300, .f32⟩
  | 6 => ⟨S450000x300, .f32⟩
  | 7 => ⟨S_, .f32⟩
  | 8 => ⟨S50000x300, .f32⟩
  | 9 => ⟨S450000x1, .i32⟩
  | 10 => ⟨S50000x300, .f32⟩
  | 11 => ⟨S1x300, .f32⟩
  | 12 => ⟨S50000x300, .f32⟩
  | 13 => ⟨S50000x300, .f32⟩
  | 14 => ⟨S_, .f32⟩
  | 15 => ⟨S50000x300, .f32⟩
  | 16 => ⟨S50000x300, .f32⟩
  | _ => ⟨S50000x300, .f32⟩

abbrev hbmTy (i : Nat) : BufTy := match i / 128 with
  | 0 => hbmTy0_0 i
  | 1 => hbmTy0_1 i
  | _ => ⟨S50000x300, .f32⟩

abbrev bufTy : (tb : Table) → Fin (tcTables nBuf tb) → BufTy
  | .hbm, ⟨i, _⟩ => hbmTy i
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_18 : Ref sig .tc := ⟨.hbm, 99, rfl⟩
abbrev main_call2_v0 : Ref sig .tc := ⟨.hbm, 100, rfl⟩
abbrev main_call2_v1 : Ref sig .tc := ⟨.hbm, 101, rfl⟩
abbrev main_v69 : Ref sig .tc := ⟨.hbm, 102, rfl⟩
abbrev main_c_19 : Ref sig .tc := ⟨.hbm, 103, rfl⟩
abbrev main_v70 : Ref sig .tc := ⟨.hbm, 104, rfl⟩
abbrev main_v71 : Ref sig .tc := ⟨.hbm, 105, rfl⟩
abbrev main_c_20 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_21 : Ref sig .tc := ⟨.hbm, 112, rfl⟩
abbrev main_v77 : Ref sig .tc := ⟨.hbm, 113, rfl⟩
abbrev main_v78 : Ref sig .tc := ⟨.hbm, 114, rfl⟩
abbrev main_c_22 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_23 : Ref sig .tc := ⟨.hbm, 123, rfl⟩
abbrev main_v86 : Ref sig .tc := ⟨.hbm, 124, rfl⟩
abbrev main_v87 : Ref sig .tc := ⟨.hbm, 125, rfl⟩
abbrev main_c_24 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_25 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_call3_cst : Ref sig .tc := ⟨.hbm, 142, rfl⟩
abbrev main_call3_v0 : Ref sig .tc := ⟨.hbm, 143, rfl⟩
abbrev main_v102 : Ref sig .tc := ⟨.hbm, 144, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S_S450000 : S_.BroadcastsInDim S450000 (![] : Fin 0 → Fin S450000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S450000x1_S450000x300_0_1 : S450000x1.BroadcastsInDim S450000x300 (![0, 1] : Fin 2 → Fin S450000x300.rank)
  bcast_S_S50000x300 : S_.BroadcastsInDim S50000x300 (![] : Fin 0 → Fin S50000x300.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x300_S300x512_S50000x512_1_0_0_1_n_n_wf : DotDims.WF S50000x300 S300x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S50000x512_S512x300_S50000x300_1_0_0_1_n_n_wf : DotDims.WF S50000x512 S512x300 S50000x300 [1] [0] [0] [1] [] []
  gather_S50000x300_S450000x1_S450000x300_1_0_n_n_0_1_1300_wf : GatherDims.WF S50000x300 S450000x1 S450000x300 [1] [0] [] [0] [] 1 ![1, 300]
  scatter_S50000x300_S450000x1_S450000x300_1_0_0_1_wf : ScatterDims.WF S50000x300 S450000x1 S450000x300 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x300_S300x512_S50000x512_1_0_0_1_n_n : DotDims S50000x300 S300x512 S50000x512 where
  lhsContracting := [1]
  rhsContracting := [0]
  lhsNonContracting := [0]
  rhsNonContracting := [1]
  lhsBatch := []
  rhsBatch := []
  wf := dot_S50000x300_S300x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S50000x512_S512x300_S50000x300_1_0_0_1_n_n : DotDims S50000x512 S512x300 S50000x300 where
  lhsContracting := [1]
  rhsContracting := [0]
  lhsNonContracting := [0]
  rhsNonContracting := [1]
  lhsBatch := []
  rhsBatch := []
  wf := dot_S50000x512_S512x300_S50000x300_1_0_0_1_n_n_wf
def gather_S50000x300_S450000x1_S450000x300_1_0_n_n_0_1_1300 : GatherDims S50000x300 S450000x1 S450000x300 where
  offsetDims := [1]
  collapsedSliceDims := [0]
  operandBatchingDims := []
  startIndicesBatchingDims := []
  startIndexMap := [0]
  indexVectorDim := 1
  sliceSizes := ![1, 300]
  wf := gather_S50000x300_S450000x1_S450000x300_1_0_n_n_0_1_1300_wf
def scatter_S50000x300_S450000x1_S450000x300_1_0_0_1 : ScatterDims S50000x300 S450000x1 S450000x300 where
  updateWindowDims := [1]
  insertedWindowDims := [0]
  scatterDimsToOperandDims := [0]
  indexVectorDim := 1
  wf := scatter_S50000x300_S450000x1_S450000x300_1_0_0_1_wf

class Facts : Prop extends Facts₀ where

variable [Facts]
-- ==== Proof.MatmulPayload.lean ====
/-
  The two dense products of the graph-convolution layers, at the extended reals.

  Each pallas_call multiplies a [50000, K] array by a [K, N] array, 2000 rows at a time: the body loads a
  [2000, K] block of the left operand and the whole right operand, rounds both to bf16, and stores
  `tpu.matmul` of them into a zero accumulator. Read at `Ideal` a change of float format is the identity and
  the product is the exact sum, so entry (r, n) of the stored block is `∑ k, x[r, k] · w[k, n]`.
  `prod1` / `prod2` are the whole-array products (the functions every block is a restriction of);
  `pay0_apply` / `pay1_apply` read the two bodies' stored values at an index.
-/
import proofs.«141095_j47253230191022_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Matmul

open Cert.KernelIdeal Cert.KernelIdeal.Gen Idealize.ShloMosaic Idealize.ShloMosaic.TcCoe Idealize.SL.Sem

/-! ## The whole-array products -/

/-- Row `i 0` of the left operand at column `k`; row `k` of the right operand at column `i 1`. -/
abbrev row1 (i : S50000x512.Idx) (k : Fin 300) : S50000x300.Idx := fun a => match a with
  | ⟨0, _⟩ => ⟨(i 0).val, (i 0).isLt⟩
  | ⟨1, _⟩ => ⟨k.val, k.isLt⟩
abbrev col1 (i : S50000x512.Idx) (k : Fin 300) : S300x512.Idx := fun a => match a with
  | ⟨0, _⟩ => ⟨k.val, k.isLt⟩
  | ⟨1, _⟩ => ⟨(i 1).val, (i 1).isLt⟩
/-- The first layer's product `x · W1`: entry (r, n) is `∑ k < 300, x[r, k] · W1[k, n]`. -/
def prod1 (x : (⟨S50000x300, .f32⟩ : BufTy).Contents (Elt Ideal)) (w : (⟨S300x512, .f32⟩ : BufTy).Contents (Elt Ideal)) :
    (⟨S50000x512, .f32⟩ : BufTy).Contents (Elt Ideal) :=
  fun i => ∑ k : Fin 300, x (row1 i k) * w (col1 i k)

abbrev row2 (i : S50000x300.Idx) (k : Fin 512) : S50000x512.Idx := fun a => match a with
  | ⟨0, _⟩ => ⟨(i 0).val, (i 0).isLt⟩
  | ⟨1, _⟩ => ⟨k.val, k.isLt⟩
abbrev col2 (i : S50000x300.Idx) (k : Fin 512) : S512x300.Idx := fun a => match a with
  | ⟨0, _⟩ => ⟨k.val, k.isLt⟩
  | ⟨1, _⟩ => ⟨(i 1).val, (i 1).isLt⟩
/-- The second layer's product `h · W2`: entry (r, n) is `∑ k < 512, h[r, k] · W2[k, n]`. -/
def prod2 (h : (⟨S50000x512, .f32⟩ : BufTy).Contents (Elt Ideal)) (w : (⟨S512x300, .f32⟩ : BufTy).Contents (Elt Ideal)) :
    (⟨S50000x300, .f32⟩ : BufTy).Contents (Elt Ideal) :=
  fun i => ∑ k : Fin 512, h (row2 i k) * w (col2 i k)

/-! ## The first product's body: a [2000, 300] block times the [300, 512] weights -/

theorem lhs0_0 (j : S2000x512.Idx) (q : dot_S2000x300_S300x512_S2000x512_1_0_0_1_n_n.contr.Idx) :
    (dot_S2000x300_S300x512_S2000x512_1_0_0_1_n_n.lhsIdx j q 0).val = (j 0).val := by
  unfold DotDims.lhsIdx
  rw [dif_neg (show ¬(0 : Fin S2000x300.rank) ∈ dot_S2000x300_S300x512_S2000x512_1_0_0_1_n_n.lhsBatch by decide), dif_pos (show (0 : Fin S2000x300.rank) ∈ dot_S2000x300_S300x512_S2000x512_1_0_0_1_n_n.lhsNonContracting by decide)]
  rfl
theorem lhs0_1 (j : S2000x512.Idx) (q : dot_S2000x300_S300x512_S2000x512_1_0_0_1_n_n.contr.Idx) :
    (dot_S2000x300_S300x512_S2000x512_1_0_0_1_n_n.lhsIdx j q 1).val = (q ⟨0, by decide⟩).val :=
  dot_S2000x300_S300x512_S2000x512_1_0_0_1_n_n.lhsIdx_val_of_single rfl j q
theorem rhs0_0 (j : S2000x512.Idx) (q : dot_S2000x300_S300x512_S2000x512_1_0_0_1_n_n.contr.Idx) :
    (dot_S2000x300_S300x512_S2000x512_1_0_0_1_n_n.rhsIdx j q 0).val = (q ⟨0, by decide⟩).val :=
  dot_S2000x300_S300x512_S2000x512_1_0_0_1_n_n.rhsIdx_val_of_single rfl j q
theorem rhs0_1 (j : S2000x512.Idx) (q : dot_S2000x300_S300x512_S2000x512_1_0_0_1_n_n.contr.Idx) :
    (dot_S2000x300_S300x512_S2000x512_1_0_0_1_n_n.rhsIdx j q 1).val = (j 1).val := by
  unfold DotDims.rhsIdx
  rw [dif_neg (show ¬(1 : Fin S300x512.rank) ∈ dot_S2000x300_S300x512_S2000x512_1_0_0_1_n_n.rhsBatch by decide), dif_pos (show (1 : Fin S300x512.rank) ∈ dot_S2000x300_S300x512_S2000x512_1_0_0_1_n_n.rhsNonContracting by decide)]
  rfl

/-- Row `j 0` of the left block at column `k`; row `k` of the weights at column `j 1`. -/
abbrev brow0 (j : S2000x512.Idx) (k : Fin 300) : S2000x300.Idx := fun a => match a with
  | ⟨0, _⟩ => ⟨(j 0).val, (j 0).isLt⟩
  | ⟨1, _⟩ => ⟨k.val, k.isLt⟩
abbrev bcol0 (j : S2000x512.Idx) (k : Fin 300) : S300x512.Idx := fun a => match a with
  | ⟨0, _⟩ => ⟨k.val, k.isLt⟩
  | ⟨1, _⟩ => ⟨(j 1).val, (j 1).isLt⟩

/-- Over the extended reals the two roundings to bf16 are the identity and the product into a zero accumulator is the
    plain sum: entry (r, n) of what the body stores is `∑ k < 300, x[r, k] · w[k, n]` of the two blocks it loaded. -/
theorem pay0_apply (x : (⟨S2000x300, .f32⟩ : BufTy).Contents (Elt Ideal)) (w : (⟨S300x512, .f32⟩ : BufTy).Contents (Elt Ideal)) (j : S2000x512.Idx) :
    k0_pay1 (F := Ideal) x w j = ∑ k : Fin 300, x (brow0 j k) * w (bcol0 j k) := by
  unfold k0_pay1
  show FloatOps.matmul dot_S2000x300_S300x512_S2000x512_1_0_0_1_n_n none _ _ (constant S2000x512 .f32 0x00000000#32) j = _
  rw [Ideal.matmul_constant_zero_apply, ← Equiv.sum_comp (ValueIdx.contrEquiv1 dot_S2000x300_S300x512_S2000x512_1_0_0_1_n_n 300 rfl rfl).symm]
  refine Finset.sum_congr rfl fun k _ => ?_
  have hk := ValueIdx.contrEquiv1_symm_val dot_S2000x300_S300x512_S2000x512_1_0_0_1_n_n 300 rfl rfl k
  have el : dot_S2000x300_S300x512_S2000x512_1_0_0_1_n_n.lhsIdx j ((ValueIdx.contrEquiv1 dot_S2000x300_S300x512_S2000x512_1_0_0_1_n_n 300 rfl rfl).symm k) = brow0 j k := funext fun a => Fin.ext (by
    match a with
    | ⟨0, _⟩ => exact lhs0_0 _ _
    | ⟨1, _⟩ => exact (lhs0_1 _ _).trans hk)
  have er : dot_S2000x300_S300x512_S2000x512_1_0_0_1_n_n.rhsIdx j ((ValueIdx.contrEquiv1 dot_S2000x300_S300x512_S2000x512_1_0_0_1_n_n 300 rfl rfl).symm k) = bcol0 j k := funext fun a => Fin.ext (by
    match a with
    | ⟨0, _⟩ => exact (rhs0_0 _ _).trans hk
    | ⟨1, _⟩ => exact rhs0_1 _ _)
  rw [el, er]
  rfl

/-! ## The second product's body: a [2000, 512] block of the hidden layer times the [512, 300] weights -/

theorem lhs1_0 (j : S2000x300.Idx) (q : dot_S2000x512_S512x300_S2000x300_1_0_0_1_n_n.contr.Idx) :
    (dot_S2000x512_S512x300_S2000x300_1_0_0_1_n_n.lhsIdx j q 0).val = (j 0).val := by
  unfold DotDims.lhsIdx
  rw [dif_neg (show ¬(0 : Fin S2000x512.rank) ∈ dot_S2000x512_S512x300_S2000x300_1_0_0_1_n_n.lhsBatch by decide), dif_pos (show (0 : Fin S2000x512.rank) ∈ dot_S2000x512_S512x300_S2000x300_1_0_0_1_n_n.lhsNonContracting by decide)]
  rfl
theorem lhs1_1 (j : S2000x300.Idx) (q : dot_S2000x512_S512x300_S2000x300_1_0_0_1_n_n.contr.Idx) :
    (dot_S2000x512_S512x300_S2000x300_1_0_0_1_n_n.lhsIdx j q 1).val = (q ⟨0, by decide⟩).val :=
  dot_S2000x512_S512x300_S2000x300_1_0_0_1_n_n.lhsIdx_val_of_single rfl j q
theorem rhs1_0 (j : S2000x300.Idx) (q : dot_S2000x512_S512x300_S2000x300_1_0_0_1_n_n.contr.Idx) :
    (dot_S2000x512_S512x300_S2000x300_1_0_0_1_n_n.rhsIdx j q 0).val = (q ⟨0, by decide⟩).val :=
  dot_S2000x512_S512x300_S2000x300_1_0_0_1_n_n.rhsIdx_val_of_single rfl j q
theorem rhs1_1 (j : S2000x300.Idx) (q : dot_S2000x512_S512x300_S2000x300_1_0_0_1_n_n.contr.Idx) :
    (dot_S2000x512_S512x300_S2000x300_1_0_0_1_n_n.rhsIdx j q 1).val = (j 1).val := by
  unfold DotDims.rhsIdx
  rw [dif_neg (show ¬(1 : Fin S512x300.rank) ∈ dot_S2000x512_S512x300_S2000x300_1_0_0_1_n_n.rhsBatch by decide), dif_pos (show (1 : Fin S512x300.rank) ∈ dot_S2000x512_S512x300_S2000x300_1_0_0_1_n_n.rhsNonContracting by decide)]
  rfl

/-- Row `j 0` of the hidden block at column `k`; row `k` of the weights at column `j 1`. -/
abbrev brow1 (j : S2000x300.Idx) (k : Fin 512) : S2000x512.Idx := fun a => match a with
  | ⟨0, _⟩ => ⟨(j 0).val, (j 0).isLt⟩
  | ⟨1, _⟩ => ⟨k.val, k.isLt⟩
abbrev bcol1 (j : S2000x300.Idx) (k : Fin 512) : S512x300.Idx := fun a => match a with
  | ⟨0, _⟩ => ⟨k.val, k.isLt⟩
  | ⟨1, _⟩ => ⟨(j 1).val, (j 1).isLt⟩

/-- The second body first casts its left block to its own shape (the identity), then does as the first:
    entry (r, n) of what it stores is `∑ k < 512, h[r, k] · w[k, n]`. -/
theorem pay1_apply (x : (⟨S2000x512, .f32⟩ : BufTy).Contents (Elt Ideal)) (w : (⟨S512x300, .f32⟩ : BufTy).Contents (Elt Ideal)) (j : S2000x300.Idx) :
    k1_pay1 (F := Ideal) x w j = ∑ k : Fin 512, x (brow1 j k) * w (bcol1 j k) := by
  unfold k1_pay1
  rw [shapeCast_self]
  show FloatOps.matmul dot_S2000x512_S512x300_S2000x300_1_0_0_1_n_n none _ _ (constant S2000x300 .f32 0x00000000#32) j = _
  rw [Ideal.matmul_constant_zero_apply, ← Equiv.sum_comp (ValueIdx.contrEquiv1 dot_S2000x512_S512x300_S2000x300_1_0_0_1_n_n 512 rfl rfl).symm]
  refine Finset.sum_congr rfl fun k _ => ?_
  have hk := ValueIdx.contrEquiv1_symm_val dot_S2000x512_S512x300_S2000x300_1_0_0_1_n_n 512 rfl rfl k
  have el : dot_S2000x512_S512x300_S2000x300_1_0_0_1_n_n.lhsIdx j ((ValueIdx.contrEquiv1 dot_S2000x512_S512x300_S2000x300_1_0_0_1_n_n 512 rfl rfl).symm k) = brow1 j k := funext fun a => Fin.ext (by
    match a with
    | ⟨0, _⟩ => exact lhs1_0 _ _
    | ⟨1, _⟩ => exact (lhs1_1 _ _).trans hk)
  have er : dot_S2000x512_S512x300_S2000x300_1_0_0_1_n_n.rhsIdx j ((ValueIdx.contrEquiv1 dot_S2000x512_S512x300_S2000x300_1_0_0_1_n_n 512 rfl rfl).symm k) = bcol1 j k := funext fun a => Fin.ext (by
    match a with
    | ⟨0, _⟩ => exact (rhs1_0 _ _).trans hk
    | ⟨1, _⟩ => exact rhs1_1 _ _)
  rw [el, er]
  rfl

end Cert.KernelIdeal.Matmul

end
-- ==== Proof.Layers.lean ====
/-
  One graph-convolution layer after its dense product, as one function of the product.

  Both programs treat the product `h = x · W` of a layer the same way: gather the rows `h[src]`, scale row `e` by
  `norm[e] = dinv[src e] · dinv[dst e]` (the symmetric degree normalisation, a function of the edge list only), add the
  scaled rows into the rows `dst` of a zero array, add the bias to every row, and clamp at zero. `layer1` / `layer2`
  name that tail for the two layers over the reference's own stages of the edge list, the bias and the constants, with the
  product left as the parameter `h`: the reference's hidden layer and result are these functions of its two
  `dot_general`s (`ref_layer1`, `ref_layer2`, by unfolding the stages).
-/
import proofs.«141095_j47253230191022_1_alg».proof.Proof.RefRead

noncomputable section

namespace Cert.Layers

open Cert.ReferenceIdeal Cert.ReferenceIdeal.Gen Cert.ReferenceIdeal.ReadP Idealize.ShloMosaic Idealize.ShloMosaic.TcCoe Idealize.SL.Sem

variable {F : FTy → Type} [FloatOps F]

/-- The first layer after its product `h` ([50000, 512]): `relu (segment_sum (h[src] · norm, dst) + b1)`. -/
def layer1 (h : (⟨S50000x512, .f32⟩ : BufTy).Contents (Elt F)) (x1 : (⟨S2x400000, .i32⟩ : BufTy).Contents (Elt F))
    (x3 : (⟨S512, .f32⟩ : BufTy).Contents (Elt F)) : (⟨S50000x512, .f32⟩ : BufTy).Contents (Elt F) :=
  maximumf
    (addf
      (Host.scatterAdd scatter_S50000x512_S450000x1_S450000x512_1_0_0_1 (val_main_v48 (F := F)) (val_main_v49 (F := F) x1)
        (mulf (Host.gather gather_S50000x512_S450000x1_S450000x512_1_0_n_n_0_1_1512 h (val_main_v43 (F := F) x1)) (val_main_v46 (F := F) x1)))
      (val_main_v52 (F := F) x3))
    (val_main_call1_v0 (F := F))

/-- The second layer after its product `g` ([50000, 300]): `relu (segment_sum (g[src] · norm, dst) + b2)`. -/
def layer2 (g : (⟨S50000x300, .f32⟩ : BufTy).Contents (Elt F)) (x1 : (⟨S2x400000, .i32⟩ : BufTy).Contents (Elt F))
    (x5 : (⟨S300, .f32⟩ : BufTy).Contents (Elt F)) : (⟨S50000x300, .f32⟩ : BufTy).Contents (Elt F) :=
  maximumf
    (addf
      (Host.scatterAdd scatter_S50000x300_S450000x1_S450000x300_1_0_0_1 (val_main_v96 (F := F)) (val_main_v97 (F := F) x1)
        (mulf (Host.gather gather_S50000x300_S450000x1_S450000x300_1_0_n_n_0_1_1300 g (val_main_v91 (F := F) x1)) (val_main_v94 (F := F) x1)))
      (val_main_v100 (F := F) x5))
    (val_main_call3_v0 (F := F))

/-- The reference's hidden layer is `layer1` of its first `dot_general`. -/
theorem ref_layer1 (x0 : (⟨S50000x300, .f32⟩ : BufTy).Contents (Elt F)) (x1 : (⟨S2x400000, .i32⟩ : BufTy).Contents (Elt F))
    (x2 : (⟨S300x512, .f32⟩ : BufTy).Contents (Elt F)) (x3 : (⟨S512, .f32⟩ : BufTy).Contents (Elt F)) :
    val_main_v54 (F := F) x0 x1 x2 x3 = layer1 (val_main_v37 (F := F) x0 x2) x1 x3 := rfl

/-- The reference's result is `layer2` of its second `dot_general`. -/
theorem ref_layer2 (x0 : (⟨S50000x300, .f32⟩ : BufTy).Contents (Elt F)) (x1 : (⟨S2x400000, .i32⟩ : BufTy).Contents (Elt F))
    (x2 : (⟨S300x512, .f32⟩ : BufTy).Contents (Elt F)) (x3 : (⟨S512, .f32⟩ : BufTy).Contents (Elt F))
    (x4 : (⟨S512x300, .f32⟩ : BufTy).Contents (Elt F)) (x5 : (⟨S300, .f32⟩ : BufTy).Contents (Elt F)) :
    val_main_v102 (F := F) x0 x1 x2 x3 x4 x5 = layer2 (val_main_v85 (F := F) x0 x1 x2 x3 x4) x1 x5 := rfl

/-- The degree normalisation depends on the edge list only, and the reference's second computation of it repeats the
    first operation for operation. -/
theorem dinv_again (x1 : (⟨S2x400000, .i32⟩ : BufTy).Contents (Elt F)) : val_main_v69 (F := F) x1 = val_main_v21 (F := F) x1 := rfl

end Cert.Layers

end
-- ==== Proof.RefProducts.lean ====
/-
  The reference's two `dot_general`s are the whole-array products.

  At the extended reals the host's `dot_general` of a [50000, K] array with a [K, N] array is, entry by entry, the sum over
  the contracted axis: entry (r, n) is `∑ k, l[r, k] · w[k, n]`. That is `prod1` for the first layer and `prod2` for the
  second (whose left operand is the reference's hidden layer).
-/
import proofs.«141095_j47253230191022_1_alg».proof.Proof.RefRead
import proofs.«141095_j47253230191022_1_alg».proof.Proof.MatmulPayload
import proofs.«141095_j47253230191022_1_alg».proof.Proof.Layers

noncomputable section

namespace Cert.RefProducts

open Idealize.ShloMosaic Idealize.ShloMosaic.TcCoe Idealize.SL.Sem

/-- The first layer's `dot_general` is `x · W1`. -/
theorem ref_prod1 (x0 : (⟨Cert.ReferenceIdeal.S50000x300, .f32⟩ : BufTy).Contents (Elt Ideal))
    (x2 : (⟨Cert.ReferenceIdeal.S300x512, .f32⟩ : BufTy).Contents (Elt Ideal)) :
    Cert.ReferenceIdeal.ReadP.val_main_v37 (F := Ideal) x0 x2 = Cert.KernelIdeal.Matmul.prod1 x0 x2 := by
  funext i
  rw [Cert.ReferenceIdeal.ReadP.val_main_v37_apply]
  show _ = ∑ k : Fin 300, x0 (Cert.KernelIdeal.Matmul.row1 i k) * x2 (Cert.KernelIdeal.Matmul.col1 i k)
  refine Finset.sum_congr rfl fun k _ => ?_
  have hl : Cert.ReferenceIdeal.ReadP.lidx_main_v37 i k = Cert.KernelIdeal.Matmul.row1 i k :=
    funext fun a => Fin.ext (by match a with | ⟨0, _⟩ => rfl | ⟨1, _⟩ => rfl)
  have hr : Cert.ReferenceIdeal.ReadP.ridx_main_v37 i k = Cert.KernelIdeal.Matmul.col1 i k :=
    funext fun a => Fin.ext (by match a with | ⟨0, _⟩ => rfl | ⟨1, _⟩ => rfl)
  rw [hl, hr]

/-- The second layer's `dot_general` is `h · W2`, `h` the reference's hidden layer. -/
theorem ref_prod2 (x0 : (⟨Cert.ReferenceIdeal.S50000x300, .f32⟩ : BufTy).Contents (Elt Ideal))
    (x1 : (⟨Cert.ReferenceIdeal.S2x400000, .i32⟩ : BufTy).Contents (Elt Ideal))
    (x2 : (⟨Cert.ReferenceIdeal.S300x512, .f32⟩ : BufTy).Contents (Elt Ideal))
    (x3 : (⟨Cert.ReferenceIdeal.S512, .f32⟩ : BufTy).Contents (Elt Ideal))
    (x4 : (⟨Cert.ReferenceIdeal.S512x300, .f32⟩ : BufTy).Contents (Elt Ideal)) :
    Cert.ReferenceIdeal.ReadP.val_main_v85 (F := Ideal) x0 x1 x2 x3 x4
      = Cert.KernelIdeal.Matmul.prod2 (Cert.ReferenceIdeal.ReadP.val_main_v54 (F := Ideal) x0 x1 x2 x3) x4 := by
  funext i
  rw [Cert.ReferenceIdeal.ReadP.val_main_v85_apply]
  show _ = ∑ k : Fin 512, (Cert.ReferenceIdeal.ReadP.val_main_v54 (F := Ideal) x0 x1 x2 x3) (Cert.KernelIdeal.Matmul.row2 i k) * x4 (Cert.KernelIdeal.Matmul.col2 i k)
  refine Finset.sum_congr rfl fun k _ => ?_
  have hl : Cert.ReferenceIdeal.ReadP.lidx_main_v85 i k = Cert.KernelIdeal.Matmul.row2 i k :=
    funext fun a => Fin.ext (by match a with | ⟨0, _⟩ => rfl | ⟨1, _⟩ => rfl)
  have hr : Cert.ReferenceIdeal.ReadP.ridx_main_v85 i k = Cert.KernelIdeal.Matmul.col2 i k :=
    funext fun a => Fin.ext (by match a with | ⟨0, _⟩ => rfl | ⟨1, _⟩ => rfl)
  rw [hl, hr]

/-- THE REFERENCE'S RESULT as a function of the six arguments: two graph-convolution layers, each a dense product followed by
    the gather / scale / scatter-add / bias / clamp tail. -/
theorem ref_result (x0 : (⟨Cert.ReferenceIdeal.S50000x300, .f32⟩ : BufTy).Contents (Elt Ideal))
    (x1 : (⟨Cert.ReferenceIdeal.S2x400000, .i32⟩ : BufTy).Contents (Elt Ideal))
    (x2 : (⟨Cert.ReferenceIdeal.S300x512, .f32⟩ : BufTy).Contents (Elt Ideal))
    (x3 : (⟨Cert.ReferenceIdeal.S512, .f32⟩ : BufTy).Contents (Elt Ideal))
    (x4 : (⟨Cert.ReferenceIdeal.S512x300, .f32⟩ : BufTy).Contents (Elt Ideal))
    (x5 : (⟨Cert.ReferenceIdeal.S300, .f32⟩ : BufTy).Contents (Elt Ideal)) :
    Cert.ReferenceIdeal.ReadP.val_main_v102 (F := Ideal) x0 x1 x2 x3 x4 x5
      = Cert.Layers.layer2 (Cert.KernelIdeal.Matmul.prod2 (Cert.Layers.layer1 (Cert.KernelIdeal.Matmul.prod1 x0 x2) x1 x3) x4) x1 x5 := by
  rw [Cert.Layers.ref_layer2, ref_prod2, Cert.Layers.ref_layer1, ref_prod1]

end Cert.RefProducts

end
-- ==== Proof.HostChains.lean ====
/-
  The kernel program's three stretches of host operations, each read as a function of what it starts from.

  @main of the kernel program is: a prefix that builds the edge arrays `src`, `dst` (the edge list with the self loops
  appended) and the degree normalisation `dinv`; the first product (a pallas_call); a middle stretch that gathers,
  scales, scatter-adds, adds the bias and clamps; the second product; and a tail that does the same for the second
  layer. Each stretch is stated from ANY contents `X` of the buffers at its start: the prefix leaves `src`, `dst`, `dinv`
  at the reference's stages of the edge list; the middle stretch and the tail leave `layer1` / `layer2` of whatever the
  product's buffer held, given that `src`, `dst`, `dinv` and the bias are still what the prefix left; and no stretch
  touches the buffers the later ones read. Nothing here depends on the float family.
-/
import proofs.«141095_j47253230191022_1_alg».proof.Proof.Gen.KernelIdeal.Launch
import proofs.«141095_j47253230191022_1_alg».proof.Proof.Layers
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]

/-- Inside a concatenate's operand list (a list of shape-and-vector pairs) the one-pass rewriting of the operations' results
    does not reach; these are the same result equations, applied by rewriting, for what is left there. -/
local macro "results_in_operand_lists" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The prefix: the edge arrays and the degree normalisation -/

/-- `src`: row 0 of the edge list, then the node numbers 0 … 49999. -/
theorem prefix_src (X : Valuation τ sig (Elt F)) :
    StableHlo.after hostOps0_1 (StableHlo.after hostOps0 X) (Proc.devRef .tc main_v3)
      = Cert.ReferenceIdeal.ReadP.val_main_v3 (F := F) (X (Proc.devRef .tc main_arg1)) := by
  dsimp only [hostOps0_1, hostOps0]
  after_results_simp
  results_in_operand_lists
  rfl

/-- `dst`: row 1 of the edge list, then the node numbers. -/
theorem prefix_dst (X : Valuation τ sig (Elt F)) :
    StableHlo.after hostOps0_1 (StableHlo.after hostOps0 X) (Proc.devRef .tc main_v6)
      = Cert.ReferenceIdeal.ReadP.val_main_v6 (F := F) (X (Proc.devRef .tc main_arg1)) := by
  dsimp only [hostOps0_1, hostOps0]
  after_results_simp
  results_in_operand_lists
  rfl

set_option maxHeartbeats 1000000 in
/-- `dinv`: `deg > 0 ? rsqrt (max deg 1) : 0` of the in-degree counted by a scatter-add of ones at `dst`. -/
theorem prefix_dinv (X : Valuation τ sig (Elt F)) :
    StableHlo.after hostOps0_1 (StableHlo.after hostOps0 X) (Proc.devRef .tc main_v21)
      = Cert.ReferenceIdeal.ReadP.val_main_v21 (F := F) (X (Proc.devRef .tc main_arg1)) := by
  dsimp only [hostOps0_1, hostOps0]
  after_results_simp
  results_in_operand_lists
  rfl

/-- The prefix writes none of the float arguments. -/
theorem prefix_keeps (X : Valuation τ sig (Elt F)) :
    StableHlo.after hostOps0_1 (StableHlo.after hostOps0 X) (Proc.devRef .tc main_arg0) = X (Proc.devRef .tc main_arg0)
    ∧ StableHlo.after hostOps0_1 (StableHlo.after hostOps0 X) (Proc.devRef .tc main_arg2) = X (Proc.devRef .tc main_arg2)
    ∧ StableHlo.after hostOps0_1 (StableHlo.after hostOps0 X) (Proc.devRef .tc main_arg3) = X (Proc.devRef .tc main_arg3)
    ∧ StableHlo.after hostOps0_1 (StableHlo.after hostOps0 X) (Proc.devRef .tc main_arg4) = X (Proc.devRef .tc main_arg4)
    ∧ StableHlo.after hostOps0_1 (StableHlo.after hostOps0 X) (Proc.devRef .tc main_arg5) = X (Proc.devRef .tc main_arg5) := by
  refine ⟨?_, ?_, ?_, ?_, ?_⟩ <;> (dsimp only [hostOps0_1, hostOps0]; after_results)

/-! ## The middle stretch: the first layer after its product -/

/-- From contents where the product's buffer holds `h` and `src`, `dst`, `dinv`, `b1` are as the prefix left them, the
    middle stretch leaves `layer1 h` in the hidden layer's buffer. -/
theorem middle_layer (X : Valuation τ sig (Elt F))
    (h : (⟨Cert.ReferenceIdeal.S50000x512, .f32⟩ : BufTy).Contents (Elt F))
    (x1 : (⟨Cert.ReferenceIdeal.S2x400000, .i32⟩ : BufTy).Contents (Elt F))
    (x3 : (⟨Cert.ReferenceIdeal.S512, .f32⟩ : BufTy).Contents (Elt F))
    (hh : X (Proc.devRef .tc main_v22) = h)
    (hs : X (Proc.devRef .tc main_v3) = Cert.ReferenceIdeal.ReadP.val_main_v3 (F := F) x1)
    (hd : X (Proc.devRef .tc main_v6) = Cert.ReferenceIdeal.ReadP.val_main_v6 (F := F) x1)
    (hv : X (Proc.devRef .tc main_v21) = Cert.ReferenceIdeal.ReadP.val_main_v21 (F := F) x1)
    (hb : X (Proc.devRef .tc main_arg3) = x3) :
    StableHlo.after hostOps1_1 (StableHlo.after hostOps1 X) (Proc.devRef .tc main_v54) = Cert.Layers.layer1 h x1 x3 := by
  dsimp only [hostOps1_1, hostOps1]
  after_results_simp
  rw [hh, hs, hd, hv, hb]
  rfl

/-- The middle stretch writes none of the buffers the second layer reads. -/
theorem middle_keeps (X : Valuation τ sig (Elt F)) :
    StableHlo.after hostOps1_1 (StableHlo.after hostOps1 X) (Proc.devRef .tc main_v3) = X (Proc.devRef .tc main_v3)
    ∧ StableHlo.after hostOps1_1 (StableHlo.after hostOps1 X) (Proc.devRef .tc main_v6) = X (Proc.devRef .tc main_v6)
    ∧ StableHlo.after hostOps1_1 (StableHlo.after hostOps1 X) (Proc.devRef .tc main_v21) = X (Proc.devRef .tc main_v21)
    ∧ StableHlo.after hostOps1_1 (StableHlo.after hostOps1 X) (Proc.devRef .tc main_arg4) = X (Proc.devRef .tc main_arg4)
    ∧ StableHlo.after hostOps1_1 (StableHlo.after hostOps1 X) (Proc.devRef .tc main_arg5) = X (Proc.devRef .tc main_arg5) := by
  refine ⟨?_, ?_, ?_, ?_, ?_⟩ <;> (dsimp only [hostOps1_1, hostOps1]; after_results_simp)

/-! ## The tail: the second layer after its product -/

/-- From contents where the second product's buffer holds `g` and `src`, `dst`, `dinv`, `b2` are as the prefix left them,
    the tail leaves `layer2 g` in the result buffer. (The reference computes `dinv` a second time for this layer, by the
    same operations: `Cert.Layers.dinv_again`.) -/
theorem tail_layer (X : Valuation τ sig (Elt F))
    (g : (⟨Cert.ReferenceIdeal.S50000x300, .f32⟩ : BufTy).Contents (Elt F))
    (x1 : (⟨Cert.ReferenceIdeal.S2x400000, .i32⟩ : BufTy).Contents (Elt F))
    (x5 : (⟨Cert.ReferenceIdeal.S300, .f32⟩ : BufTy).Contents (Elt F))
    (hg : X (Proc.devRef .tc main_v55) = g)
    (hs : X (Proc.devRef .tc main_v3) = Cert.ReferenceIdeal.ReadP.val_main_v3 (F := F) x1)
    (hd : X (Proc.devRef .tc main_v6) = Cert.ReferenceIdeal.ReadP.val_main_v6 (F := F) x1)
    (hv : X (Proc.devRef .tc main_v21) = Cert.ReferenceIdeal.ReadP.val_main_v21 (F := F) x1)
    (hb : X (Proc.devRef .tc main_arg5) = x5) :
    StableHlo.after hostOps2_1 (StableHlo.after hostOps2 X) (Proc.devRef .tc main_v87) = Cert.Layers.layer2 g x1 x5 := by
  dsimp only [hostOps2_1, hostOps2]
  after_results_simp
  rw [hg, hs, hd, hv, hb]
  rfl

end Cert.KernelIdeal.Stretch

end
-- ==== Proof.Region0Array.lean ====
/-
  The first pallas_call's output array, as one function of what the call finds in its operands.

  Grid point `t` (of 25) stages rows [2000·t, 2000·t + 2000) of the left operand and the whole weight array, and
  writes the body's product back to the same rows of the output. So what point `t` writes back is block `t` of
  the whole-array product `prod1` of the two operand arrays; the 25 row blocks cover the [50000, 512] output;
  hence the output array ends holding `prod1`. Stated for ANY contents `V` of the buffers at the call's entry.
-/
import proofs.«141095_j47253230191022_1_alg».proof.Proof.Gen.KernelIdeal.Frame
import proofs.«141095_j47253230191022_1_alg».proof.Proof.MatmulPayload

set_option maxRecDepth 16384

noncomputable section

namespace Cert.KernelIdeal.Matmul

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The two operand arrays as the call finds them, and the two blocks point `t` stages, each at its literal type. -/
abbrev xarr0 (c : Dev nD) : (⟨S50000x300, .f32⟩ : BufTy).Contents (Elt Ideal) := V c main_arg0
abbrev warr0 (c : Dev nD) : (⟨S300x512, .f32⟩ : BufTy).Contents (Elt Ideal) := V c main_arg2
abbrev xblk0 (c : Dev nD) (t : Fin cfg0.N) : (⟨S2000x300, .f32⟩ : BufTy).Contents (Elt Ideal) := iblk0 V c 0 t
abbrev wblk0 (c : Dev nD) (t : Fin cfg0.N) : (⟨S300x512, .f32⟩ : BufTy).Contents (Elt Ideal) := iblk0 V c 1 t

/-- The printed index maps over the grid: at point `t` the left operand's block and the output's block are row block `t`,
    and the weights' block is the whole array. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the left block at point `t` is row `2000·t + r` of the left array: the row the output's block has there. -/
theorem block_row0 (c : Dev nD) (t : Fin cfg0.N) (j : S2000x512.Idx) (k : Fin 300) :
    xblk0 V c t (brow0 j k) = xarr0 V c (row1 (((cfg0.win 2).blk t).view.emb j) k) := by
  obtain ⟨e0, e1, e2, e3, e4, e5⟩ := blockIdx0 t
  show V c main_arg0 (((cfg0.win 0).blk t).view.emb (brow0 j k)) = V c main_arg0 (row1 (((cfg0.win 2).blk t).view.emb j) k)
  refine congrArg _ (funext fun a => Fin.ext ?_)
  match a with
  | ⟨0, _⟩ => show win0_0.index t (0 : Fin 2) * 2000 + 1 * (j 0).val = win0_2.index t (0 : Fin 2) * 2000 + 1 * (j 0).val; omega
  | ⟨1, _⟩ => show win0_0.index t (1 : Fin 2) * 300 + 1 * k.val = k.val; omega

/-- The weights' block is the whole weight array: its column `n` is the array's column `n`. -/
theorem block_col0 (c : Dev nD) (t : Fin cfg0.N) (j : S2000x512.Idx) (k : Fin 300) :
    wblk0 V c t (bcol0 j k) = warr0 V c (col1 (((cfg0.win 2).blk t).view.emb j) k) := by
  obtain ⟨e0, e1, e2, e3, e4, e5⟩ := blockIdx0 t
  show V c main_arg2 (((cfg0.win 1).blk t).view.emb (bcol0 j k)) = V c main_arg2 (col1 (((cfg0.win 2).blk t).view.emb j) k)
  refine congrArg _ (funext fun a => Fin.ext ?_)
  match a with
  | ⟨0, _⟩ => show win0_1.index t (0 : Fin 2) * 300 + 1 * k.val = k.val; omega
  | ⟨1, _⟩ => show win0_1.index t (1 : Fin 2) * 512 + 1 * (j 1).val = win0_2.index t (1 : Fin 2) * 512 + 1 * (j 1).val; omega

/-- What point `t` writes back is block `t` of the product of the two operand arrays: entry (r, n) of the stored block is
    the sum over `k` of the left block's row `r` against the weights' column `n`. -/
theorem writeback0 (c : Dev nD) (t : Fin cfg0.N) :
    (dat0 V c).flushed 2 t = ((cfg0.win 2).blk t).view.read (Elt Ideal) (prod1 (xarr0 V c) (warr0 V c)) := by
  show (cfg0.win 2).cut (grid0.coords t) ((dat0 V c).after 2 t) = _
  rw [after0_2]
  unfold out0_2
  rw [View.canon_unit_zero origin2]
  simp only [View.ld_unit_zero (S := S2000x300) origin2, View.ld_unit_zero (S := S300x512) origin2]
  funext j
  refine (pay0_apply (xblk0 V c t) (wblk0 V c t) j).trans ?_
  show _ = ∑ k : Fin 300, xarr0 V c (row1 (((cfg0.win 2).blk t).view.emb j) k) * warr0 V c (col1 (((cfg0.win 2).blk t).view.emb j) k)
  exact Finset.sum_congr rfl fun k _ => by rw [block_row0 V c t j k, block_col0 V c t j k]

/-- An index of the output array is in point `t`'s block iff each coordinate is in the block's range on its axis. -/
theorem mem_block0 (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v22).slice (win0_2.rect t)).set ↔ _
  rw [View.set_slice_whole, Rect.mem_set_unit]
  exact Iff.rfl

/-- Row `r` of the output lies in the block of point `r / 2000`: the 25 row blocks cover the array. -/
theorem covered0 (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 25 := N_0
  have ht : (i 0).val / 2000 < cfg0.N := by rw [hN]; omega
  refine ⟨⟨(i 0).val / 2000, ht⟩, flush0_2 _, ?_⟩
  rw [mem_block0]
  obtain ⟨-, -, -, -, e4, e5⟩ := blockIdx0 ⟨(i 0).val / 2000, ht⟩
  have e4' : win0_2.index ⟨(i 0).val / 2000, ht⟩ (0 : Fin 2) = (i 0).val / 2000 := e4
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 512 ≤ (i 1).val ∧ (i 1).val < win0_2.index ⟨(i 0).val / 2000, ht⟩ (1 : Fin 2) * 512 + 512; omega

/-- THE OUTPUT ARRAY of the first call, after its last grid point: the product of the two operand arrays as the call found them. -/
theorem array0 (c : Dev nD) : (dat0 V c).arrAt 2 cfg0.N = prod1 (xarr0 V c) (warr0 V c) :=
  (dat0 V c).arrAt_eq_of_cover 2 (prod1 (xarr0 V c) (warr0 V c)) (fun t _ => writeback0 V c t) covered0

end Cert.KernelIdeal.Matmul

end
-- ==== Proof.Region1Array.lean ====
/-
  The second pallas_call's output array, as one function of what the call finds in its operands.

  Grid point `t` (of 25) stages rows [2000·t, 2000·t + 2000) of the hidden layer and the whole second weight array,
  and writes the body's product back to the same rows of the output. So what point `t` writes back is block `t` of the
  whole-array product `prod2` of the two operand arrays; the 25 row blocks cover the [50000, 300] output; hence the
  output array ends holding `prod2`. Stated for ANY contents `V` of the buffers at the call's entry.
-/
import proofs.«141095_j47253230191022_1_alg».proof.Proof.Gen.KernelIdeal.Frame
import proofs.«141095_j47253230191022_1_alg».proof.Proof.MatmulPayload

set_option maxRecDepth 16384

noncomputable section

namespace Cert.KernelIdeal.Matmul

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin2' : (![0, 0] : Fin 2 → Nat) = fun _ => 0 := funext fun a => by fin_cases a <;> rfl

/-- The hidden layer and the second weight array as the call finds them, and the two blocks point `t` stages, each at its
    literal type. -/
abbrev xarr1 (c : Dev nD) : (⟨S50000x512, .f32⟩ : BufTy).Contents (Elt Ideal) := V c main_v54
abbrev warr1 (c : Dev nD) : (⟨S512x300, .f32⟩ : BufTy).Contents (Elt Ideal) := V c main_arg4
abbrev xblk1 (c : Dev nD) (t : Fin cfg1.N) : (⟨S2000x512, .f32⟩ : BufTy).Contents (Elt Ideal) := iblk1 V c 0 t
abbrev wblk1 (c : Dev nD) (t : Fin cfg1.N) : (⟨S512x300, .f32⟩ : BufTy).Contents (Elt Ideal) := iblk1 V c 1 t

/-- The printed index maps over the grid: at point `t` the hidden layer's block and the output's block are row block `t`,
    and the weights' block is the whole array. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the hidden block at point `t` is row `2000·t + r` of the hidden layer: the row the output's block has there. -/
theorem block_row1 (c : Dev nD) (t : Fin cfg1.N) (j : S2000x300.Idx) (k : Fin 512) :
    xblk1 V c t (brow1 j k) = xarr1 V c (row2 (((cfg1.win 2).blk t).view.emb j) k) := by
  obtain ⟨e0, e1, e2, e3, e4, e5⟩ := blockIdx1 t
  show V c main_v54 (((cfg1.win 0).blk t).view.emb (brow1 j k)) = V c main_v54 (row2 (((cfg1.win 2).blk t).view.emb j) k)
  refine congrArg _ (funext fun a => Fin.ext ?_)
  match a with
  | ⟨0, _⟩ => show win1_0.index t (0 : Fin 2) * 2000 + 1 * (j 0).val = win1_2.index t (0 : Fin 2) * 2000 + 1 * (j 0).val; omega
  | ⟨1, _⟩ => show win1_0.index t (1 : Fin 2) * 512 + 1 * k.val = k.val; omega

/-- The weights' block is the whole second weight array: its column `n` is the array's column `n`. -/
theorem block_col1 (c : Dev nD) (t : Fin cfg1.N) (j : S2000x300.Idx) (k : Fin 512) :
    wblk1 V c t (bcol1 j k) = warr1 V c (col2 (((cfg1.win 2).blk t).view.emb j) k) := by
  obtain ⟨e0, e1, e2, e3, e4, e5⟩ := blockIdx1 t
  show V c main_arg4 (((cfg1.win 1).blk t).view.emb (bcol1 j k)) = V c main_arg4 (col2 (((cfg1.win 2).blk t).view.emb j) k)
  refine congrArg _ (funext fun a => Fin.ext ?_)
  match a with
  | ⟨0, _⟩ => show win1_1.index t (0 : Fin 2) * 512 + 1 * k.val = k.val; omega
  | ⟨1, _⟩ => show win1_1.index t (1 : Fin 2) * 300 + 1 * (j 1).val = win1_2.index t (1 : Fin 2) * 300 + 1 * (j 1).val; omega

/-- What point `t` writes back is block `t` of the product of the two operand arrays: entry (r, n) of the stored block is
    the sum over `k` of the hidden block's row `r` against the weights' column `n`. -/
theorem writeback1 (c : Dev nD) (t : Fin cfg1.N) :
    (dat1 V c).flushed 2 t = ((cfg1.win 2).blk t).view.read (Elt Ideal) (prod2 (xarr1 V c) (warr1 V c)) := by
  show (cfg1.win 2).cut (grid1.coords t) ((dat1 V c).after 2 t) = _
  rw [after1_2]
  unfold out1_2
  rw [View.canon_unit_zero origin2']
  simp only [View.ld_unit_zero (S := S2000x512) origin2', View.ld_unit_zero (S := S512x300) origin2']
  funext j
  refine (pay1_apply (xblk1 V c t) (wblk1 V c t) j).trans ?_
  show _ = ∑ k : Fin 512, xarr1 V c (row2 (((cfg1.win 2).blk t).view.emb j) k) * warr1 V c (col2 (((cfg1.win 2).blk t).view.emb j) k)
  exact Finset.sum_congr rfl fun k _ => by rw [block_row1 V c t j k, block_col1 V c t j k]

/-- An index of the output array is in point `t`'s block iff each coordinate is in the block's range on its axis. -/
theorem mem_block1 (t : Fin cfg1.N) (i : S50000x300.Idx) :
    i ∈ ((cfg1.win 2).blk t).view.set ↔ ∀ a : Fin 2, win1_2.index t a * S2000x300.size a ≤ (i a).val ∧ (i a).val < win1_2.index t a * S2000x300.size a + S2000x300.size a := by
  show i ∈ ((View.whole main_v55).slice (win1_2.rect t)).set ↔ _
  rw [View.set_slice_whole, Rect.mem_set_unit]
  exact Iff.rfl

/-- Row `r` of the output lies in the block of point `r / 2000`: the 25 row blocks cover the array. -/
theorem covered1 (i : S50000x300.Idx) : ∃ t : Fin cfg1.N, (cfg1.win 2).flush t = true ∧ i ∈ ((cfg1.win 2).blk t).view.set := by
  have hi0 : (i 0).val < 50000 := (i 0).isLt
  have hi1 : (i 1).val < 300 := (i 1).isLt
  have hN : cfg1.N = 25 := N_1
  have ht : (i 0).val / 2000 < cfg1.N := by rw [hN]; omega
  refine ⟨⟨(i 0).val / 2000, ht⟩, flush1_2 _, ?_⟩
  rw [mem_block1]
  obtain ⟨-, -, -, -, e4, e5⟩ := blockIdx1 ⟨(i 0).val / 2000, ht⟩
  have e4' : win1_2.index ⟨(i 0).val / 2000, ht⟩ (0 : Fin 2) = (i 0).val / 2000 := e4
  intro a
  match a with
  | ⟨0, _⟩ => show win1_2.index ⟨(i 0).val / 2000, ht⟩ (0 : Fin 2) * 2000 ≤ (i 0).val ∧ (i 0).val < win1_2.index ⟨(i 0).val / 2000, ht⟩ (0 : Fin 2) * 2000 + 2000; omega
  | ⟨1, _⟩ => show win1_2.index ⟨(i 0).val / 2000, ht⟩ (1 : Fin 2) * 300 ≤ (i 1).val ∧ (i 1).val < win1_2.index ⟨(i 0).val / 2000, ht⟩ (1 : Fin 2) * 300 + 300; omega

/-- THE OUTPUT ARRAY of the second call, after its last grid point: the product of the two operand arrays as the call found them. -/
theorem array1 (c : Dev nD) : (dat1 V c).arrAt 2 cfg1.N = prod2 (xarr1 V c) (warr1 V c) :=
  (dat1 V c).arrAt_eq_of_cover 2 (prod2 (xarr1 V c) (warr1 V c)) (fun t _ => writeback1 V c t) covered1

end Cert.KernelIdeal.Matmul

end
-- ==== Proof.Fold.lean ====
/-
  The kernel program's result buffer as a function of its six arguments.

  Through @main the buffers' contents pass from the launch memory `m` to the return in eight steps (two stretches of host
  operations, the first pallas_call, two more stretches, the second pallas_call, two more stretches). Followed at the few
  buffers that matter:
    • after the prefix, `src`, `dst`, `dinv` hold the reference's stages of the edge list and the float arguments are as
      launched;
    • the first call leaves `x · W1` in its output and touches nothing else that is read later;
    • the middle stretch leaves `layer1 (x · W1)` in the hidden layer's buffer;
    • the second call leaves `layer1 (x · W1) · W2` in its output;
    • the tail leaves `layer2` of that in the result buffer.
  That last term is `gcn`, which is also what the reference computes (`Cert.RefProducts.ref_result`).
-/
import proofs.«141095_j47253230191022_1_alg».proof.Proof.Gen.KernelIdeal.Frame
import proofs.«141095_j47253230191022_1_alg».proof.Proof.HostChains
import proofs.«141095_j47253230191022_1_alg».proof.Proof.Region0Array
import proofs.«141095_j47253230191022_1_alg».proof.Proof.Region1Array

set_option maxRecDepth 16384

noncomputable section

namespace Cert.KernelIdeal.Fold

open Cert.KernelIdeal Cert.KernelIdeal.Gen Idealize.ShloMosaic Idealize.ShloMosaic.TcCoe Idealize.SL.Sem
open Cert.KernelIdeal.Matmul Cert.KernelIdeal.Stretch Cert.Layers

variable (m : (ℓ : Loc nD τ sig) → Buf (Elt Ideal) ℓ) (ρ : Dev nD → PrngReg)

/-! ## The six arguments as launched, each at its literal type -/

abbrev argX (c : Dev nD) : (⟨Cert.ReferenceIdeal.S50000x300, .f32⟩ : BufTy).Contents (Elt Ideal) := m ((c : Thread nD τ).loc main_arg0)
abbrev argE (c : Dev nD) : (⟨Cert.ReferenceIdeal.S2x400000, .i32⟩ : BufTy).Contents (Elt Ideal) := m ((c : Thread nD τ).loc main_arg1)
abbrev argW1 (c : Dev nD) : (⟨Cert.ReferenceIdeal.S300x512, .f32⟩ : BufTy).Contents (Elt Ideal) := m ((c : Thread nD τ).loc main_arg2)
abbrev argB1 (c : Dev nD) : (⟨Cert.ReferenceIdeal.S512, .f32⟩ : BufTy).Contents (Elt Ideal) := m ((c : Thread nD τ).loc main_arg3)
abbrev argW2 (c : Dev nD) : (⟨Cert.ReferenceIdeal.S512x300, .f32⟩ : BufTy).Contents (Elt Ideal) := m ((c : Thread nD τ).loc main_arg4)
abbrev argB2 (c : Dev nD) : (⟨Cert.ReferenceIdeal.S300, .f32⟩ : BufTy).Contents (Elt Ideal) := m ((c : Thread nD τ).loc main_arg5)

/-- Two graph-convolution layers of the arguments: `layer2 (layer1 (x · W1) · W2)`. -/
def gcn (c : Dev nD) : (⟨Cert.ReferenceIdeal.S50000x300, .f32⟩ : BufTy).Contents (Elt Ideal) :=
  layer2 (prod2 (layer1 (prod1 (argX m c) (argW1 m c)) (argE m c) (argB1 m c)) (argW2 m c)) (argE m c) (argB2 m c)

/-! ## At the first call's entry (after the prefix) -/

theorem entry0_src (c : Dev nD) : W2 m ρ c (Proc.devRef .tc main_v3) = Cert.ReferenceIdeal.ReadP.val_main_v3 (F := Ideal) (argE m c) :=
  prefix_src (W0 m ρ c)
theorem entry0_dst (c : Dev nD) : W2 m ρ c (Proc.devRef .tc main_v6) = Cert.ReferenceIdeal.ReadP.val_main_v6 (F := Ideal) (argE m c) :=
  prefix_dst (W0 m ρ c)
theorem entry0_dinv (c : Dev nD) : W2 m ρ c (Proc.devRef .tc main_v21) = Cert.ReferenceIdeal.ReadP.val_main_v21 (F := Ideal) (argE m c) :=
  prefix_dinv (W0 m ρ c)
theorem entry0_x (c : Dev nD) : W2 m ρ c (Proc.devRef .tc main_arg0) = argX m c := (prefix_keeps (W0 m ρ c)).1
theorem entry0_w1 (c : Dev nD) : W2 m ρ c (Proc.devRef .tc main_arg2) = argW1 m c := (prefix_keeps (W0 m ρ c)).2.1
theorem entry0_b1 (c : Dev nD) : W2 m ρ c (Proc.devRef .tc main_arg3) = argB1 m c := (prefix_keeps (W0 m ρ c)).2.2.1
theorem entry0_w2 (c : Dev nD) : W2 m ρ c (Proc.devRef .tc main_arg4) = argW2 m c := (prefix_keeps (W0 m ρ c)).2.2.2.1
theorem entry0_b2 (c : Dev nD) : W2 m ρ c (Proc.devRef .tc main_arg5) = argB2 m c := (prefix_keeps (W0 m ρ c)).2.2.2.2

/-! ## At the first call's exit: its output holds the product, every buffer that is not one of its arrays is as entered -/

theorem exit0_prod (c : Dev nD) : W3 m ρ c (Proc.devRef .tc main_v22) = prod1 (argX m c) (argW1 m c) :=
  (W3_arr m ρ c 2).trans ((array0 (V2 m ρ) c).trans (congrArg₂ prod1 (entry0_x m ρ c) (entry0_w1 m ρ c)))
theorem exit0_src (c : Dev nD) : W3 m ρ c (Proc.devRef .tc main_v3) = Cert.ReferenceIdeal.ReadP.val_main_v3 (F := Ideal) (argE m c) :=
  (W3_of_ne m ρ c main_v3 (by decide)).trans (entry0_src m ρ c)
theorem exit0_dst (c : Dev nD) : W3 m ρ c (Proc.devRef .tc main_v6) = Cert.ReferenceIdeal.ReadP.val_main_v6 (F := Ideal) (argE m c) :=
  (W3_of_ne m ρ c main_v6 (by decide)).trans (entry0_dst m ρ c)
theorem exit0_dinv (c : Dev nD) : W3 m ρ c (Proc.devRef .tc main_v21) = Cert.ReferenceIdeal.ReadP.val_main_v21 (F := Ideal) (argE m c) :=
  (W3_of_ne m ρ c main_v21 (by decide)).trans (entry0_dinv m ρ c)
theorem exit0_b1 (c : Dev nD) : W3 m ρ c (Proc.devRef .tc main_arg3) = argB1 m c :=
  (W3_of_ne m ρ c main_arg3 (by decide)).trans (entry0_b1 m ρ c)
theorem exit0_w2 (c : Dev nD) : W3 m ρ c (Proc.devRef .tc main_arg4) = argW2 m c :=
  (W3_of_ne m ρ c main_arg4 (by decide)).trans (entry0_w2 m ρ c)
theorem exit0_b2 (c : Dev nD) : W3 m ρ c (Proc.devRef .tc main_arg5) = argB2 m c :=
  (W3_of_ne m ρ c main_arg5 (by decide)).trans (entry0_b2 m ρ c)

/-! ## At the second call's entry (after the middle stretch) -/

/-- The hidden layer: `layer1 (x · W1)`. -/
theorem entry1_hidden (c : Dev nD) :
    W5 m ρ c (Proc.devRef .tc main_v54) = layer1 (prod1 (argX m c) (argW1 m c)) (argE m c) (argB1 m c) :=
  middle_layer (W3 m ρ c) _ _ _ (exit0_prod m ρ c) (exit0_src m ρ c) (exit0_dst m ρ c) (exit0_dinv m ρ c) (exit0_b1 m ρ c)
theorem entry1_src (c : Dev nD) : W5 m ρ c (Proc.devRef .tc main_v3) = Cert.ReferenceIdeal.ReadP.val_main_v3 (F := Ideal) (argE m c) :=
  (middle_keeps (W3 m ρ c)).1.trans (exit0_src m ρ c)
theorem entry1_dst (c : Dev nD) : W5 m ρ c (Proc.devRef .tc main_v6) = Cert.ReferenceIdeal.ReadP.val_main_v6 (F := Ideal) (argE m c) :=
  (middle_keeps (W3 m ρ c)).2.1.trans (exit0_dst m ρ c)
theorem entry1_dinv (c : Dev nD) : W5 m ρ c (Proc.devRef .tc main_v21) = Cert.ReferenceIdeal.ReadP.val_main_v21 (F := Ideal) (argE m c) :=
  (middle_keeps (W3 m ρ c)).2.2.1.trans (exit0_dinv m ρ c)
theorem entry1_w2 (c : Dev nD) : W5 m ρ c (Proc.devRef .tc main_arg4) = argW2 m c :=
  (middle_keeps (W3 m ρ c)).2.2.2.1.trans (exit0_w2 m ρ c)
theorem entry1_b2 (c : Dev nD) : W5 m ρ c (Proc.devRef .tc main_arg5) = argB2 m c :=
  (middle_keeps (W3 m ρ c)).2.2.2.2.trans (exit0_b2 m ρ c)

/-! ## At the second call's exit -/

theorem exit1_prod (c : Dev nD) :
    W6 m ρ c (Proc.devRef .tc main_v55) = prod2 (layer1 (prod1 (argX m c) (argW1 m c)) (argE m c) (argB1 m c)) (argW2 m c) :=
  (W6_arr m ρ c 2).trans ((array1 (V5 m ρ) c).trans (congrArg₂ prod2 (entry1_hidden m ρ c) (entry1_w2 m ρ c)))
theorem exit1_src (c : Dev nD) : W6 m ρ c (Proc.devRef .tc main_v3) = Cert.ReferenceIdeal.ReadP.val_main_v3 (F := Ideal) (argE m c) :=
  (W6_of_ne m ρ c main_v3 (by decide)).trans (entry1_src m ρ c)
theorem exit1_dst (c : Dev nD) : W6 m ρ c (Proc.devRef .tc main_v6) = Cert.ReferenceIdeal.ReadP.val_main_v6 (F := Ideal) (argE m c) :=
  (W6_of_ne m ρ c main_v6 (by decide)).trans (entry1_dst m ρ c)
theorem exit1_dinv (c : Dev nD) : W6 m ρ c (Proc.devRef .tc main_v21) = Cert.ReferenceIdeal.ReadP.val_main_v21 (F := Ideal) (argE m c) :=
  (W6_of_ne m ρ c main_v21 (by decide)).trans (entry1_dinv m ρ c)
theorem exit1_b2 (c : Dev nD) : W6 m ρ c (Proc.devRef .tc main_arg5) = argB2 m c :=
  (W6_of_ne m ρ c main_arg5 (by decide)).trans (entry1_b2 m ρ c)

/-! ## At the return -/

/-- THE RESULT BUFFER at the last boundary: two graph-convolution layers of the arguments. -/
theorem result_eq (c : Dev nD) : W8 m ρ c (Proc.devRef .tc main_v87) = gcn m c :=
  tail_layer (W6 m ρ c) _ _ _ (exit1_prod m ρ c) (exit1_src m ρ c) (exit1_dst m ρ c) (exit1_dinv m ρ c) (exit1_b2 m ρ c)

end Cert.KernelIdeal.Fold

end
-- ==== Proof.lean ====
/-
  Two graph-convolution layers (GCNConv with self loops and symmetric normalisation, each followed by relu) over 50000 nodes
  and 400000 edges: the kernel program computes each layer's dense product `h · W` in a pallas_call (2000 rows per grid point, the
  operands rounded to bf16, `tpu.matmul` into a zero accumulator) and the gather / scale / scatter-add / bias / clamp around it on
  the host; the reference is the same host program with `dot_general` in place of each call.

  Over the extended reals both programs end with
      gcn = layer2 (layer1 (x · W1) · W2),
  where `layer` gathers the rows `src` of the product, scales row `e` by `dinv[src e] · dinv[dst e]`, adds the rows into the rows
  `dst` of a zero array, adds the bias and clamps at zero (`Cert.Layers`):
    • a change of float format is the identity and a product into a zero accumulator is the plain sum over the contracted axis, so
      each call's block at grid point `t` is rows [2000·t, 2000·t + 2000) of the whole product, and the 25 blocks cover it
      (`MatmulPayload`, `Region0Array`, `Region1Array`);
    • the host's `dot_general` is the same sum (`RefProducts`);
    • everything else is the same operations in both programs, applied to equal values — the degree normalisation depends on the
      edge list only, and the reference's second computation of it repeats the first (`HostChains`, `Fold`).
  No law of the extended reals beyond reading the two products as the same finite sums is used, so the precondition is never opened.
  The three frames are the two generated frames and the reference's run with its result dropped; the idealization rewrote nothing,
  so `preserves` is `True`.
-/
import proofs.«141095_j47253230191022_1_alg».proof.Defs
import proofs.«141095_j47253230191022_1_alg».proof.Proof.Gen.Kernel
import proofs.«141095_j47253230191022_1_alg».proof.Proof.Gen.Kernel.Skeleton
import proofs.«141095_j47253230191022_1_alg».proof.Proof.Gen.Kernel.Launch
import proofs.«141095_j47253230191022_1_alg».proof.Proof.Gen.Kernel.Points
import proofs.«141095_j47253230191022_1_alg».proof.Proof.Gen.Kernel.Frame
import proofs.«141095_j47253230191022_1_alg».proof.Proof.Gen.KernelIdeal
import proofs.«141095_j47253230191022_1_alg».proof.Proof.Gen.KernelIdeal.Skeleton
import proofs.«141095_j47253230191022_1_alg».proof.Proof.Gen.KernelIdeal.Launch
import proofs.«141095_j47253230191022_1_alg».proof.Proof.Gen.KernelIdeal.Points
import proofs.«141095_j47253230191022_1_alg».proof.Proof.Gen.KernelIdeal.Frame
import proofs.«141095_j47253230191022_1_alg».proof.Proof.Gen.ReferenceIdeal
import proofs.«141095_j47253230191022_1_alg».proof.Proof.Gen.Pre_finite_inputs
import proofs.«141095_j47253230191022_1_alg».proof.Proof.KernelIdealRun
import proofs.«141095_j47253230191022_1_alg».proof.Proof.RefRun
import proofs.«141095_j47253230191022_1_alg».proof.Proof.RefRead
import proofs.«141095_j47253230191022_1_alg».proof.Proof.RefProducts
import proofs.«141095_j47253230191022_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with `gcn` of them in the result buffer: the kernel program by
    the fold through its @main (`Fold.result_eq`), the reference by its run, read as two layers (`RefProducts.ref_result`). -/
theorem algebraic : Cert.algebraic_KernelIdeal_ReferenceIdeal := by
  intro m ρ m' ρ' _ hagree
  refine ⟨fun c => Cert.KernelIdeal.Fold.gcn m c, ?_, ?_⟩
  · exact (θ_run Cert.KernelIdeal.defs _ _).mono
      (fun r h c => ⟨(h c).1.trans (Cert.KernelIdeal.Fold.result_eq m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v102_eq, Cert.RefProducts.ref_result,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
